-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_v88) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S128x16 .f32) (main_arg9 : FVec F S16 .f32) (main_v33 : IVec S_ 1) : IVec S_ 1 :=
  let main_v34 : FVec F S128x16 .f32 := Host.absf main_arg8
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S128 .f32) (main_arg6 : FVec F S128x16 .f32) (main_arg7 : FVec F S16 .f32) (main_arg8 : FVec F S128x16 .f32) (main_arg9 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x16 .f32) (main_arg7 : FVec F S16 .f32) (main_arg8 : FVec F S128x16 .f32) (main_arg9 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S10000x128 : Shape := ⟨2, ![10000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S128x32 : Shape := ⟨2, ![128, 32]⟩
abbrev S32 : Shape := ⟨1, ![32]⟩
abbrev S100000x32 : Shape := ⟨2, ![100000, 32]⟩
abbrev S10000x32 : Shape := ⟨2, ![10000, 32]⟩
abbrev S1x32 : Shape := ⟨2, ![1, 32]⟩
abbrev S100000x16 : Shape := ⟨2, ![100000, 16]⟩

abbrev nBuf : Space → Nat
  | .hbm => 119
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S128x16, .f32⟩
  | .hbm, ⟨9, _⟩ => ⟨S16, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000x128, .f32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000, .i32⟩
  | .hbm, ⟨66, _⟩ => ⟨S1700000, .i32⟩
  | .hbm, ⟨67, _⟩ => ⟨S1700000, .i32⟩
  | .hbm, ⟨68, _⟩ => ⟨S_, .f32⟩
  | .hbm, ⟨69, _⟩ => ⟨S1700000, .f32⟩
  | .hbm, ⟨70, _⟩ => ⟨S_, .f32⟩
  | .hbm, ⟨71, _⟩ => ⟨S100000, .f32⟩
  | .hbm, ⟨72, _⟩ => ⟨S1700000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S1700000, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x128, .f32⟩
  | .hbm, ⟨106, _⟩ => ⟨S1700000x1, .f32⟩
  | .hbm, ⟨107, _⟩ => ⟨S1700000x128, .f32⟩
  | .hbm, ⟨108, _⟩ => ⟨S1700000x128, .f32⟩
  | .hbm, ⟨109, _⟩ => ⟨S_, .f32⟩
  | .hbm, ⟨110, _⟩ => ⟨S100000x128, .f32⟩
  | .hbm, ⟨111, _⟩ => ⟨S1700000x1, .i32⟩
  | .hbm, ⟨112, _⟩ => ⟨S100000x128, .f32⟩
  | .hbm, ⟨113, _⟩ => ⟨S100000x128, .f32⟩
  | .hbm, ⟨114, _⟩ => ⟨S128x32, .f32⟩
  | .hbm, ⟨115, _⟩ => ⟨S32, .f32⟩
  | .hbm, ⟨116, _⟩ => ⟨S100000x32, .f32⟩
  | .hbm, ⟨117, _⟩ => ⟨S100000x16, .f32⟩
  | .hbm, ⟨118, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x32, .f32⟩
  | .local _ .vmem, ⟨23, _⟩ => ⟨S32, .f32⟩
  | .local _ .vmem, ⟨24, _⟩ => ⟨S10000x32, .f32⟩
  | .local _ .vmem, ⟨25, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  concatenates_S128x16_S128x16_S128x32_d1 : Shape.Concatenates [S128x16, S128x16] S128x32 1
  concatenates_S16_S16_S32_d0 : Shape.Concatenates [S16, S16] S32 0
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32_S32_0 : ∀ a, (![0] : Fin 1 → Nat) a + S32.size a ≤ S32.size a
  h_S32 : 0 < S32.numel
  shapeCasts_S32_S32 : S32.ShapeCasts S32
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  slices_S100000x32_S100000x16_0_0 : S100000x32.Slices ![0, 0] S100000x16
  slices_S100000x32_S100000x16_0_16 : S100000x32.Slices ![0, 16] S100000x16
  dot_S10000x128_S128x128_S10000x128_1_0_0_1_n_n_wf : DotDims.WF S10000x128 S128x128 S10000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x32_S10000x32_1_0_0_1_n_n_wf : DotDims.WF S10000x128 S128x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x32.size a ≤ S128x32.size a
  hwx4_1 : ∀ i : grid4.Coords, EltTy.bits .f32 = 32 ∨ (Rect.block (s := S128x32) S128x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32.size a ≤ S32.size a
  hwx4_2 : ∀ i : grid4.Coords, EltTy.bits .f32 = 32 ∨ (Rect.block (s := S32) S32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x32.size a ≤ S100000x32.size a
  hwx4_3 : ∀ i : grid4.Coords, EltTy.bits .f32 = 32 ∨ (Rect.block (s := S100000x32) S10000x32.size (cc4_transform_3 i) (hinb4_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v83) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S128x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S10000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x16 : Shape := ⟨2, ![100000, 16]⟩
abbrev S1x16 : Shape := ⟨2, ![1, 16]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x16, .f32⟩
  | 7 => ⟨S16, .f32⟩
  | 8 => ⟨S128x16, .f32⟩
  | 9 => ⟨S16, .f32⟩
  | 10 => ⟨S1x1600000, .i32⟩
  | 11 => ⟨S1600000, .i32⟩
  | 12 => ⟨S1x1600000, .i32⟩
  | 13 => ⟨S1600000, .i32⟩
  | 14 => ⟨S100000x128, .f32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x128, .f32⟩
  | 111 => ⟨S1700000x1, .f32⟩
  | 112 => ⟨S1700000x128, .f32⟩
  | 113 => ⟨S1700000x128, .f32⟩
  | 114 => ⟨S_, .f32⟩
  | 115 => ⟨S100000x128, .f32⟩
  | 116 => ⟨S1700000x1, .i32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x16, .f32⟩
  | 125 => ⟨S1x16, .f32⟩
  | 126 => ⟨S100000x16, .f32⟩
  | 127 => ⟨S100000x16, .f32⟩
  | _ => ⟨S100000x128, .f32⟩

abbrev hbmTy0_1 (i : Nat) : BufTy := match i % 128 with
  | 0 => ⟨S100000x16, .f32⟩
  | 1 => ⟨S1x16, .f32⟩
  | 2 => ⟨S100000x16, .f32⟩
  | 3 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_cst : Ref sig .tc := ⟨.hbm, 66, rfl⟩
abbrev main_call0_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_c_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_call1_cst : Ref sig .tc := ⟨.hbm, 121, rfl⟩
abbrev main_call1_v0 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.Kept.lean ====
/- The run's buffer contents at the boundaries between stretches of host operations and regions are a fold from the
   launch memory. A buffer that nothing in between writes holds at a later boundary what it held at an earlier one. -/
import proofs.«126655_j91233695301736_1_alg».proof.Proof.KRun
import Idealize.ShloMosaic.Lib.StableHlo.Run

set_option maxRecDepth 16384

noncomputable section

open Idealize.ShloMosaic Idealize.ShloMosaic.TcCoe Idealize.SL.Sem

namespace Cert.KernelIdeal.Kept

open Cert.KernelIdeal Cert.KernelIdeal.Gen

variable {F : FTy → Type} [FloatOps F]
variable (m : (ℓ : Loc nD τ sig) → Buf (Elt F) ℓ) (ρ : Dev nD → PrngReg)

/-- A stretch of host operations leaves a buffer none of its operations writes as it was. -/
macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- x is as launched when region 0 reads it. -/
theorem W1_main_arg0 (c : Dev nD) : W1 m ρ c (Proc.devRef .tc main_arg0) = m ((c.tc : Thread nD τ).loc main_arg0) :=
  calc W1 m ρ c (Proc.devRef .tc main_arg0)
    _ = W0 m ρ c (Proc.devRef .tc main_arg0) := by
          show StableHlo.after hostOps0 (W0 m ρ c) (Proc.devRef .tc main_arg0) = _
          host_keeps hostOps0
    _ = _ := rfl

/-- W1 is as launched when region 0 reads it. -/
theorem W1_main_arg2 (c : Dev nD) : W1 m ρ c (Proc.devRef .tc main_arg2) = m ((c.tc : Thread nD τ).loc main_arg2) :=
  calc W1 m ρ c (Proc.devRef .tc main_arg2)
    _ = W0 m ρ c (Proc.devRef .tc main_arg2) := by
          show StableHlo.after hostOps0 (W0 m ρ c) (Proc.devRef .tc main_arg2) = _
          host_keeps hostOps0
    _ = _ := rfl

/-- b1 is as launched when region 1 reads it. -/
theorem W3_main_arg3 (c : Dev nD) : W3 m ρ c (Proc.devRef .tc main_arg3) = m ((c.tc : Thread nD τ).loc main_arg3) :=
  calc W3 m ρ c (Proc.devRef .tc main_arg3)
    _ = W2 m ρ c (Proc.devRef .tc main_arg3) := by
          show StableHlo.after hostOps1 (W2 m ρ c) (Proc.devRef .tc main_arg3) = _
          host_keeps hostOps1
    _ = W1 m ρ c (Proc.devRef .tc main_arg3) := W2_of_ne m ρ c main_arg3 (by decide)
    _ = W0 m ρ c (Proc.devRef .tc main_arg3) := by
          show StableHlo.after hostOps0 (W0 m ρ c) (Proc.devRef .tc main_arg3) = _
          host_keeps hostOps0
    _ = _ := rfl

/-- W2 is as launched when region 2 reads it. -/
theorem W4_main_arg4 (c : Dev nD) : W4 m ρ c (Proc.devRef .tc main_arg4) = m ((c.tc : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by
          show StableHlo.after hostOps1 (W2 m ρ c) (Proc.devRef .tc main_arg4) = _
          host_keeps hostOps1
    _ = W1 m ρ c (Proc.devRef .tc main_arg4) := W2_of_ne m ρ c main_arg4 (by decide)
    _ = W0 m ρ c (Proc.devRef .tc main_arg4) := by
          show StableHlo.after hostOps0 (W0 m ρ c) (Proc.devRef .tc main_arg4) = _
          host_keeps hostOps0
    _ = _ := rfl

/-- b2 is as launched when region 3 reads it. -/
theorem W6_main_arg5 (c : Dev nD) : W6 m ρ c (Proc.devRef .tc main_arg5) = m ((c.tc : Thread nD τ).loc main_arg5) :=
  calc W6 m ρ c (Proc.devRef .tc main_arg5)
    _ = W5 m ρ c (Proc.devRef .tc main_arg5) := by
          show StableHlo.after hostOps3 (W5 m ρ c) (Proc.devRef .tc main_arg5) = _
          host_keeps hostOps3
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := by
          show StableHlo.after hostOps1 (W2 m ρ c) (Proc.devRef .tc main_arg5) = _
          host_keeps hostOps1
    _ = W1 m ρ c (Proc.devRef .tc main_arg5) := W2_of_ne m ρ c main_arg5 (by decide)
    _ = W0 m ρ c (Proc.devRef .tc main_arg5) := by
          show StableHlo.after hostOps0 (W0 m ρ c) (Proc.devRef .tc main_arg5) = _
          host_keeps hostOps0
    _ = _ := rfl

/-- Wm is as launched when the fourth host stretch reads it. -/
theorem W7_main_arg6 (c : Dev nD) : W7 m ρ c (Proc.devRef .tc main_arg6) = m ((c.tc : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := by
          show StableHlo.after hostOps3 (W5 m ρ c) (Proc.devRef .tc main_arg6) = _
          host_keeps hostOps3
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := by
          show StableHlo.after hostOps1 (W2 m ρ c) (Proc.devRef .tc main_arg6) = _
          host_keeps hostOps1
    _ = W1 m ρ c (Proc.devRef .tc main_arg6) := W2_of_ne m ρ c main_arg6 (by decide)
    _ = W0 m ρ c (Proc.devRef .tc main_arg6) := by
          show StableHlo.after hostOps0 (W0 m ρ c) (Proc.devRef .tc main_arg6) = _
          host_keeps hostOps0
    _ = _ := rfl

/-- bm is as launched when the fourth host stretch reads it. -/
theorem W7_main_arg7 (c : Dev nD) : W7 m ρ c (Proc.devRef .tc main_arg7) = m ((c.tc : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := by
          show StableHlo.after hostOps3 (W5 m ρ c) (Proc.devRef .tc main_arg7) = _
          host_keeps hostOps3
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := by
          show StableHlo.after hostOps1 (W2 m ρ c) (Proc.devRef .tc main_arg7) = _
          host_keeps hostOps1
    _ = W1 m ρ c (Proc.devRef .tc main_arg7) := W2_of_ne m ρ c main_arg7 (by decide)
    _ = W0 m ρ c (Proc.devRef .tc main_arg7) := by
          show StableHlo.after hostOps0 (W0 m ρ c) (Proc.devRef .tc main_arg7) = _
          host_keeps hostOps0
    _ = _ := rfl

/-- Ws is as launched when the fourth host stretch reads it. -/
theorem W7_main_arg8 (c : Dev nD) : W7 m ρ c (Proc.devRef .tc main_arg8) = m ((c.tc : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := by
          show StableHlo.after hostOps3 (W5 m ρ c) (Proc.devRef .tc main_arg8) = _
          host_keeps hostOps3
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := by
          show StableHlo.after hostOps1 (W2 m ρ c) (Proc.devRef .tc main_arg8) = _
          host_keeps hostOps1
    _ = W1 m ρ c (Proc.devRef .tc main_arg8) := W2_of_ne m ρ c main_arg8 (by decide)
    _ = W0 m ρ c (Proc.devRef .tc main_arg8) := by
          show StableHlo.after hostOps0 (W0 m ρ c) (Proc.devRef .tc main_arg8) = _
          host_keeps hostOps0
    _ = _ := rfl

/-- bs is as launched when the fourth host stretch reads it. -/
theorem W7_main_arg9 (c : Dev nD) : W7 m ρ c (Proc.devRef .tc main_arg9) = m ((c.tc : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := by
          show StableHlo.after hostOps3 (W5 m ρ c) (Proc.devRef .tc main_arg9) = _
          host_keeps hostOps3
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := by
          show StableHlo.after hostOps1 (W2 m ρ c) (Proc.devRef .tc main_arg9) = _
          host_keeps hostOps1
    _ = W1 m ρ c (Proc.devRef .tc main_arg9) := W2_of_ne m ρ c main_arg9 (by decide)
    _ = W0 m ρ c (Proc.devRef .tc main_arg9) := by
          show StableHlo.after hostOps0 (W0 m ρ c) (Proc.devRef .tc main_arg9) = _
          host_keeps hostOps0
    _ = _ := rfl

/-- The sources' row is still what the first host stretch made when the second reads it. -/
theorem W2_main_v1_from1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)
    _ = _ := rfl

/-- The destinations' row is still what the first host stretch made when the second reads it. -/
theorem W2_main_v3_from1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)
    _ = _ := rfl

/-- The sources' row is unchanged between the second host stretch and the third. -/
theorem W5_main_v1_from2 (c : Dev nD) : W5 m ρ c (Proc.devRef .tc main_v1) = W2 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := by
          show StableHlo.after hostOps1 (W2 m ρ c) (Proc.devRef .tc main_v1) = _
          host_keeps hostOps1
    _ = _ := rfl

/-- The destinations' row is unchanged between the second host stretch and the third. -/
theorem W5_main_v3_from2 (c : Dev nD) : W5 m ρ c (Proc.devRef .tc main_v3) = W2 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by
          show StableHlo.after hostOps1 (W2 m ρ c) (Proc.devRef .tc main_v3) = _
          host_keeps hostOps1
    _ = _ := rfl

/-- The fourth host stretch does not write the two layers' output. -/
theorem W8_main_v83_from7 (c : Dev nD) : W8 m ρ c (Proc.devRef .tc main_v83) = W7 m ρ c (Proc.devRef .tc main_v83) :=
  calc W8 m ρ c (Proc.devRef .tc main_v83)
    _ = W7 m ρ c (Proc.devRef .tc main_v83) := by
          show StableHlo.after hostOps4 (W7 m ρ c) (Proc.devRef .tc main_v83) = _
          host_keeps hostOps4
    _ = _ := rfl

end Cert.KernelIdeal.Kept

end
-- ==== Proof.AdjK.lean ====
/-
  The adjacency operator of the graph convolution, over the kernel program's own shape and
  dimension records: a gather of rows along the edges, a scaling by the symmetric degree normalisation, and a
  scatter-add at the destinations. It is carried as ONE function of the dense product and the two endpoint vectors.
-/
import proofs.«126655_j91233695301736_1_alg».proof.KernelIdeal
import proofs.«126655_j91233695301736_1_alg».proof.Proof.Gen.KernelIdeal

noncomputable section

namespace Cert.KernelIdeal.Adj

open Cert.KernelIdeal Cert.KernelIdeal.Gen Idealize.ShloMosaic

variable {F : FTy → Type} [FloatOps F]

/-- An edge-endpoint vector with one self loop per node appended. -/
def withLoops (v : IVec S1600000 32) : IVec S1700000 32 :=
  concatenate S1700000 0 [⟨S1600000, v⟩, ⟨S100000, (iotaInDim S100000 32 0)⟩] concatenates_S1600000_S100000_S1700000_d0

/-- A negative node index counted from the end. -/
def wrapNeg (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- A node index vector as the one-column index array a gather or scatter takes. -/
def asColumn (v : IVec S1700000 32) : IVec S1700000x1 32 :=
  broadcastInDim S1700000x1 ![0] bcast_S1700000_S1700000x1_0 v

/-- The inverse square root of each node's in-degree (self loop included), the degree kept at least one. -/
def invSqrtDeg (dst : IVec S1600000 32) : FVec F S100000 .f32 :=
  Host.rsqrt (maximumf
    (Host.scatterAdd scatter_S100000_S1700000x1_S1700000_n_0_0_1
      (broadcastInDim S100000 ![] bcast_S_S100000 (constant S_ .f32 0x00000000#32))
      (asColumn (withLoops dst))
      (broadcastInDim S1700000 ![] bcast_S_S1700000 (constant S_ .f32 0x3F800000#32)))
    (broadcastInDim S100000 ![] bcast_S_S100000 (constant S_ .f32 0x3F800000#32)))

/-- The symmetric normalisation of every edge: the two endpoints' inverse square-root degrees multiplied. -/
def edgeNorm (src dst : IVec S1600000 32) : FVec F S1700000 .f32 :=
  mulf (Host.gather gather_S100000_S1700000x1_S1700000_n_0_n_n_0_1_1 (invSqrtDeg (F := F) dst) (asColumn (wrapNeg (withLoops src))))
    (Host.gather gather_S100000_S1700000x1_S1700000_n_0_n_n_0_1_1 (invSqrtDeg (F := F) dst) (asColumn (wrapNeg (withLoops dst))))

/-- THE ADJACENCY OPERATOR: each edge carries its source row of `h`, scaled by the edge's normalisation, and the rows
    are added up at the edge's destination. -/
def adj (h : FVec F S100000x128 .f32) (src dst : IVec S1600000 32) : FVec F S100000x128 .f32 :=
  Host.scatterAdd scatter_S100000x128_S1700000x1_S1700000x128_1_0_0_1
    (broadcastInDim S100000x128 ![] bcast_S_S100000x128 (constant S_ .f32 0x00000000#32))
    (asColumn (withLoops dst))
    (mulf (Host.gather gather_S100000x128_S1700000x1_S1700000x128_1_0_n_n_0_1_1128 h (asColumn (wrapNeg (withLoops src))))
      (broadcastInDim S1700000x128 ![0, 1] bcast_S1700000x1_S1700000x128_0_1
        (broadcastInDim S1700000x1 ![0] bcast_S1700000_S1700000x1_0 (edgeNorm (F := F) src dst))))

/-- One row of the edge list as a vector: the sources are row 0, the destinations row 1. -/
def edgeRow0 (e : IVec S2x1600000 32) : IVec S1600000 32 :=
  shapeCast _ (extractStridedSlice S1x1600000 ![0, 0] e slices_S2x1600000_S1x1600000_0_0) shapeCasts_S1x1600000_S1600000
def edgeRow1 (e : IVec S2x1600000 32) : IVec S1600000 32 :=
  shapeCast _ (extractStridedSlice S1x1600000 ![1, 0] e slices_S2x1600000_S1x1600000_1_0) shapeCasts_S1x1600000_S1600000

end Cert.KernelIdeal.Adj

end
-- ==== Proof.Spec.lean ====
/-
  The mathematics both programs compute, as functions of whole arrays, index by index, over the extended reals.

  A graph-convolution layer is  relu (A · (x · W) + b)  where  A  is the normalised adjacency operator; two layers are
  followed by two affine heads  h · Wm + bm  and  h · Ws + bs.  The three dense pieces are written here:
    * `dense x w`     : entry (p, q) is the sum over k of x (p, k) * w (k, q);
    * `biasRelu a b`  : entry (p, q) is max (a (p, q) + b q) 0;
    * `affine h w b`  : entry (p, q) is (dense h w) (p, q) + b q.
  The adjacency operator (a gather along edges, a scaling, a scatter-add) is the same sequence of host operations in
  both programs and is never opened: it enters every statement as one function applied to the dense product.
-/
import Idealize.ShloMosaic.Lib.ValueIdx
import Idealize.ShloMosaic.PureOps.Ideal

noncomputable section

open scoped BigOperators

namespace Gcn

open Idealize.ShloMosaic Idealize.ShloMosaic.ValueIdx

/-- The product of a 100000 × 128 array with a 128 × n array: the textbook sum over the shared axis. -/
def dense {n : Nat} (x : FVec Ideal ⟨2, ![100000, 128]⟩ .f32) (w : FVec Ideal ⟨2, ![128, n]⟩ .f32) :
    FVec Ideal ⟨2, ![100000, n]⟩ .f32 :=
  fun j => ∑ k : Fin 128, x (ix2 (j 0) k) * w (ix2 k (j 1))

theorem dense_apply {n : Nat} (x : FVec Ideal ⟨2, ![100000, 128]⟩ .f32) (w : FVec Ideal ⟨2, ![128, n]⟩ .f32)
    (p : Fin 100000) (q : Fin n) : dense x w (ix2 p q) = ∑ k : Fin 128, x (ix2 p k) * w (ix2 k q) := rfl

/-- A bias added along every row, then the positive part. The zero is the float word of +0. -/
def biasRelu (a : FVec Ideal ⟨2, ![100000, 128]⟩ .f32) (b : FVec Ideal ⟨1, ![128]⟩ .f32) :
    FVec Ideal ⟨2, ![100000, 128]⟩ .f32 :=
  fun j => max (a j + b (ix1 (j 1))) (Ideal.ofBits .f32 0x00000000#32)

theorem biasRelu_apply (a : FVec Ideal ⟨2, ![100000, 128]⟩ .f32) (b : FVec Ideal ⟨1, ![128]⟩ .f32)
    (p : Fin 100000) (q : Fin 128) :
    biasRelu a b (ix2 p q) = max (a (ix2 p q) + b (ix1 q)) (Ideal.ofBits .f32 0x00000000#32) := rfl

/-- A dense product with a bias added along every row. -/
def affine {n : Nat} (h : FVec Ideal ⟨2, ![100000, 128]⟩ .f32) (w : FVec Ideal ⟨2, ![128, n]⟩ .f32)
    (b : FVec Ideal ⟨1, ![n]⟩ .f32) : FVec Ideal ⟨2, ![100000, n]⟩ .f32 :=
  fun j => dense h w j + b (ix1 (j 1))

theorem affine_apply {n : Nat} (h : FVec Ideal ⟨2, ![100000, 128]⟩ .f32) (w : FVec Ideal ⟨2, ![128, n]⟩ .f32)
    (b : FVec Ideal ⟨1, ![n]⟩ .f32) (p : Fin 100000) (q : Fin n) :
    affine h w b (ix2 p q) = (∑ k : Fin 128, h (ix2 p k) * w (ix2 k q)) + b (ix1 q) := rfl

end Gcn

end
-- ==== Proof.Layers.lean ====
/-
  The two graph-convolution layers as one function: with `A` the adjacency operator,
  `hidden A x w1 b1 w2 b2 = relu (A (relu (A (x · w1)) + b1) · w2) + b2)`. Both programs' results are an affine head of it.
-/
import proofs.«126655_j91233695301736_1_alg».proof.Proof.Spec

noncomputable section

namespace Gcn

open Idealize.ShloMosaic

/-- Two layers: a dense product, the adjacency operator, a bias and the positive part, twice. -/
def hidden (A : FVec Ideal ⟨2, ![100000, 128]⟩ .f32 → FVec Ideal ⟨2, ![100000, 128]⟩ .f32)
    (x : FVec Ideal ⟨2, ![100000, 128]⟩ .f32) (w1 : FVec Ideal ⟨2, ![128, 128]⟩ .f32) (b1 : FVec Ideal ⟨1, ![128]⟩ .f32)
    (w2 : FVec Ideal ⟨2, ![128, 128]⟩ .f32) (b2 : FVec Ideal ⟨1, ![128]⟩ .f32) : FVec Ideal ⟨2, ![100000, 128]⟩ .f32 :=
  biasRelu (A (dense (biasRelu (A (dense x w1)) b1) w2)) b2

end Gcn

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.Region0.lean ====
import proofs.«126655_j91233695301736_1_alg».proof.Proof.Gen.KernelIdeal.Frame
import proofs.«126655_j91233695301736_1_alg».proof.Proof.Spec
import proofs.«126655_j91233695301736_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Val0

open Cert.KernelIdeal Cert.KernelIdeal.Gen

variable (V : (c : Dev nD) → (b : Ref sig .tc) → Buf (Elt Ideal) ((c : Thread nD τ).loc b))

/-- A whole-block access starts at the origin on both axes. -/
theorem origin2 : (![0, 0] : Fin 2 → Nat) = fun _ => 0 :=
  funext fun a => match a with | ⟨0, _⟩ => rfl | ⟨1, _⟩ => rfl

/-- The body's arithmetic at an entry: both operands are narrowed (the identity on extended reals) and multiplied
    from a zero accumulator, so entry (p, q) is the sum over k of x (p, k) * w (k, q). -/
theorem pay_apply (x : Vec Ideal S10000x128 .f32) (w : Vec Ideal S128x128 .f32) (p : Fin 10000) (q : Fin 128) :
    k0_pay1 (F := Ideal) x w (ix2 p q) = ∑ k : Fin 128, x (ix2 p k) * w (ix2 k q) := by
  unfold k0_pay1
  refine (PlainDot.matmul_zero_apply ⟨rfl, rfl, rfl, rfl, rfl, rfl⟩ none _ _ p q).trans ?_
  rfl

/-- The printed index maps over the grid: the row-blocked windows sit at block (t, 0), the weight at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The dense product at an entry, from any two families that are row (i 0) of x and column (i 1) of w. -/
theorem dense_of_row_col (x : FVec Ideal ⟨2, ![100000, 128]⟩ .f32) (w : FVec Ideal ⟨2, ![128, 128]⟩ .f32)
    (f g : Fin 128 → EReal) (i : (⟨2, ![100000, 128]⟩ : Shape).Idx)
    (hf : ∀ k, f k = x (ix2 (i 0) k)) (hg : ∀ k, g k = w (ix2 k (i 1))) :
    ∑ k : Fin 128, f k * g k = Gcn.dense x w i :=
  Finset.sum_congr rfl fun k _ => by rw [hf, hg]

/-- What grid point t writes back is block t of the dense product of the two arrays the region finds: row p of the
    block is row 10000 t + p of x, and the weight block is the whole weight. -/
theorem flushed_eq (c : Dev nD) (t : Fin cfg0.N) :
    (dat0 (F := Ideal) V c).flushed 2 t
      = ((cfg0.win 2).blk t).view.read (Elt Ideal) (Gcn.dense (V c main_arg0) (V c main_arg2)) := by
  show (cfg0.win 2).cut (grid0.coords t) ((dat0 V c).after 2 t) = _
  rw [after0_2]
  unfold out0_2
  rw [View.canon_unit_zero origin2]
  simp only [View.ld_unit_zero (S := S10000x128) origin2, View.ld_unit_zero (S := S128x128) origin2]
  obtain ⟨e0, e1, e2, e3, e4, e5⟩ := idx_facts t
  funext j
  obtain ⟨p, q, rfl⟩ : ∃ (p : Fin 10000) (q : Fin 128), j = ix2 p q := ⟨j 0, j 1, eq_ix2 j⟩
  refine (pay_apply (iblk0 V c 0 t) (iblk0 V c 1 t) p q).trans ?_
  refine dense_of_row_col (V c main_arg0) (V c main_arg2) (fun k => iblk0 V c 0 t (ix2 p k)) (fun k => iblk0 V c 1 t (ix2 k q))
    (((cfg0.win 2).blk t).view.emb (ix2 p q)) (fun k => ?_) (fun k => ?_)
  · -- row p of the block of x is row (10000 t + p) of x
    refine congrArg (V c main_arg0) ?_
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  · -- the weight block is the whole weight; the column is the output's column
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the result array lies in grid point t's block iff each coordinate lies in the block's range. -/
theorem mem_blk (t : Fin cfg0.N) (i : S100000x128.Idx) :
    i ∈ ((cfg0.win 2).blk t).view.set
      ↔ ∀ a : Fin 2, win0_2.index t a * S10000x128.size a ≤ (i a).val
          ∧ (i a).val < win0_2.index t a * S10000x128.size a + S10000x128.size a := by
  show i ∈ ((View.whole main_v4).slice (win0_2.rect t)).set ↔ _
  rw [View.set_slice_whole, Rect.mem_set_unit]
  exact Iff.rfl

/-- The ten row blocks tile the result array: row r lies in the block of grid point r / 10000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 10000, by rw [show cfg0.N = 10 from N_0]; omega⟩
  have ht : t.val = (i 0).val / 10000 := rfl
  obtain ⟨e0, e1, e2, e3, e4, e5⟩ := idx_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- Region 0 (x · W1): its output array after the region, as one function of the arrays the region finds. -/
theorem arr0 (c : Dev nD) : (dat0 (F := Ideal) V c).arrAt 2 cfg0.N = Gcn.dense (V c main_arg0) (V c main_arg2) :=
  (dat0 (F := Ideal) V c).arrAt_eq_of_cover 2 (Gcn.dense (V c main_arg0) (V c main_arg2))
    (fun t _ => flushed_eq V c t) cover

end Cert.KernelIdeal.Val0

end
-- ==== Proof.Region1.lean ====
import proofs.«126655_j91233695301736_1_alg».proof.Proof.Gen.KernelIdeal.Frame
import proofs.«126655_j91233695301736_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Val1

open Cert.KernelIdeal Cert.KernelIdeal.Gen

variable (V : (c : Dev nD) → (b : Ref sig .tc) → Buf (Elt Ideal) ((c : Thread nD τ).loc b))

/-- The all-zero offsets of a whole-block access, rank 2 and rank 1. -/
theorem hz2 : (![0, 0] : Fin 2 → Nat) = fun _ => 0 := funext fun a => by fin_cases a <;> rfl
theorem hz1 : (![0] : Fin 1 → Nat) = fun _ => 0 := funext fun a => by fin_cases a; rfl

/-- The body's arithmetic at an entry: the row block's entry plus the bias at its column, then the positive part. -/
theorem pay_apply (x0 : Vec Ideal S10000x128 .f32) (x1 : Vec Ideal S128 .f32) (p : Fin 10000) (q : Fin 128) :
    k1_pay1 (F := Ideal) x0 x1 (ix2 p q) = max (x0 (ix2 p q) + x1 (ix1 q)) (Ideal.ofBits .f32 0x00000000#32) := by
  unfold k1_pay1
  refine (maximumf_apply _ _ _).trans ?_
  refine congrArg₂ max ?_ ?_
  · refine (addf_apply _ _ _).trans ?_
    refine congrArg₂ (· + ·) ?_ ?_
    · exact congrFun (shapeCast_self x0 _) (ix2 p q)
    · refine (broadcastTo_1b_ab_apply _ _ p q).trans ?_
      exact shapeCast_a_1a_apply x1 _ (0 : Fin 1) q
  · rfl

/-- The block index maps over the grid: the row-blocked windows sit at block (t, 0), the bias window at block (0). -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- An entry of the whole-array function, read from entries of the two arrays at places known only up to equality:
    the aggregated array at the same place, the bias at that place's column. -/
theorem biasRelu_at (a : FVec Ideal ⟨2, ![100000, 128]⟩ .f32) (b : FVec Ideal ⟨1, ![128]⟩ .f32)
    (i0 i2 : (⟨2, ![100000, 128]⟩ : Shape).Idx) (i1 : (⟨1, ![128]⟩ : Shape).Idx) (h0 : i0 = i2) (h1 : i1 = ix1 (i2 1)) :
    max (a i0 + b i1) (Ideal.ofBits .f32 0x00000000#32) = Gcn.biasRelu a b i2 := by
  subst h0 h1; rfl

/-- What grid point t writes back is block t of the bias-and-positive-part of the arrays the region finds. -/
theorem flushed_eq (c : Dev nD) (t : Fin cfg1.N) :
    (dat1 (F := Ideal) V c).flushed 2 t
      = ((cfg1.win 2).blk t).view.read (Elt Ideal) (Gcn.biasRelu (V c main_v42) (V c main_arg3)) := by
  show (cfg1.win 2).cut (grid1.coords t) ((dat1 V c).after 2 t) = _
  rw [after1_2]
  unfold out1_2
  rw [View.canon_unit_zero hz2]
  simp only [View.ld_unit_zero (S := S10000x128) hz2, View.ld_unit_zero (S := S128) hz1]
  funext j
  obtain ⟨p, q, rfl⟩ : ∃ (p : Fin 10000) (q : Fin 128), j = ix2 p q := ⟨j 0, j 1, eq_ix2 j⟩
  obtain ⟨e00, e01, e10, e20, e21⟩ := idx_facts t
  show k1_pay1 (F := Ideal) (iblk1 V c 0 t) (iblk1 V c 1 t) (ix2 p q)
    = Gcn.biasRelu (V c main_v42) (V c main_arg3) (((cfg1.win 2).blk t).view.emb (ix2 p q))
  refine (pay_apply (iblk1 V c 0 t) (iblk1 V c 1 t) p q).trans ?_
  -- the row block's entry is the array's entry at the output block's place
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  -- the bias block's entry is the bias at the output place's column
  have h1 : ((cfg1.win 1).blk t).view.emb (ix1 q) = ix1 ((((cfg1.win 2).blk t).view.emb (ix2 p q)) 1) := by
    funext a; apply Fin.ext
    match a with
    | ⟨0, _⟩ => show win1_1.index t (0 : Fin 1) * 128 + 1 * q.val = win1_2.index t (1 : Fin 2) * 128 + 1 * q.val; omega
  exact biasRelu_at (V c main_v42) (V c main_arg3) (((cfg1.win 0).blk t).view.emb (ix2 p q))
    (((cfg1.win 2).blk t).view.emb (ix2 p q)) (((cfg1.win 1).blk t).view.emb (ix1 q)) h0 h1

/-- A place of the array lies in grid point t's block iff each coordinate lies in the block's range on its axis. -/
theorem mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v43).slice (win1_2.rect t)).set ↔ _
  rw [View.set_slice_whole, Rect.mem_set_unit]
  exact Iff.rfl

/-- Every place of the array is in the block some grid point writes back: row r is in block r / 10000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 10000, by rw [show cfg1.N = 10 from N_1]; omega⟩
  obtain ⟨e00, e01, e10, e20, e21⟩ := idx_facts t
  have ht : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- Region 1 (relu (agg + b1)): its output array after the region, as one function of the arrays the region finds. -/
theorem arr1 (c : Dev nD) : (dat1 (F := Ideal) V c).arrAt 2 cfg1.N = Gcn.biasRelu (V c main_v42) (V c main_arg3) :=
  (dat1 (F := Ideal) V c).arrAt_eq_of_cover 2 (Gcn.biasRelu (V c main_v42) (V c main_arg3))
    (fun t _ => flushed_eq V c t) cover

end Cert.KernelIdeal.Val1

end
-- ==== Proof.Region2.lean ====
import proofs.«126655_j91233695301736_1_alg».proof.Proof.Gen.KernelIdeal.Frame
import proofs.«126655_j91233695301736_1_alg».proof.Proof.Spec
import proofs.«126655_j91233695301736_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Val2

open Cert.KernelIdeal Cert.KernelIdeal.Gen

variable (V : (c : Dev nD) → (b : Ref sig .tc) → Buf (Elt Ideal) ((c : Thread nD τ).loc b))

/-- A whole-block access starts at the origin on both axes. -/
theorem origin2 : (![0, 0] : Fin 2 → Nat) = fun _ => 0 :=
  funext fun a => match a with | ⟨0, _⟩ => rfl | ⟨1, _⟩ => rfl

/-- The body's arithmetic at an entry: the left operand is recast to its own shape (the identity), both operands are
    narrowed (the identity on extended reals) and multiplied from a zero accumulator, so entry (p, q) is the sum over
    k of h (p, k) * w (k, q). -/
theorem pay_apply (h : Vec Ideal S10000x128 .f32) (w : Vec Ideal S128x128 .f32) (p : Fin 10000) (q : Fin 128) :
    k2_pay1 (F := Ideal) h w (ix2 p q) = ∑ k : Fin 128, h (ix2 p k) * w (ix2 k q) := by
  unfold k2_pay1
  rw [shapeCast_self]
  refine (PlainDot.matmul_zero_apply ⟨rfl, rfl, rfl, rfl, rfl, rfl⟩ none _ _ p q).trans ?_
  rfl

/-- The printed index maps over the grid: the row-blocked windows sit at block (t, 0), the weight at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The dense product at an entry, from any two families that are row (i 0) of h and column (i 1) of w. -/
theorem dense_of_row_col (h : FVec Ideal ⟨2, ![100000, 128]⟩ .f32) (w : FVec Ideal ⟨2, ![128, 128]⟩ .f32)
    (f g : Fin 128 → EReal) (i : (⟨2, ![100000, 128]⟩ : Shape).Idx)
    (hf : ∀ k, f k = h (ix2 (i 0) k)) (hg : ∀ k, g k = w (ix2 k (i 1))) :
    ∑ k : Fin 128, f k * g k = Gcn.dense h w i :=
  Finset.sum_congr rfl fun k _ => by rw [hf, hg]

/-- What grid point t writes back is block t of the dense product of the two arrays the region finds: row p of the
    block is row 10000 t + p of the hidden layer, and the weight block is the whole weight. -/
theorem flushed_eq (c : Dev nD) (t : Fin cfg2.N) :
    (dat2 (F := Ideal) V c).flushed 2 t
      = ((cfg2.win 2).blk t).view.read (Elt Ideal) (Gcn.dense (V c main_v43) (V c main_arg4)) := by
  show (cfg2.win 2).cut (grid2.coords t) ((dat2 V c).after 2 t) = _
  rw [after2_2]
  unfold out2_2
  rw [View.canon_unit_zero origin2]
  simp only [View.ld_unit_zero (S := S10000x128) origin2, View.ld_unit_zero (S := S128x128) origin2]
  obtain ⟨e0, e1, e2, e3, e4, e5⟩ := idx_facts t
  funext j
  obtain ⟨p, q, rfl⟩ : ∃ (p : Fin 10000) (q : Fin 128), j = ix2 p q := ⟨j 0, j 1, eq_ix2 j⟩
  refine (pay_apply (iblk2 V c 0 t) (iblk2 V c 1 t) p q).trans ?_
  refine dense_of_row_col (V c main_v43) (V c main_arg4) (fun k => iblk2 V c 0 t (ix2 p k)) (fun k => iblk2 V c 1 t (ix2 k q))
    (((cfg2.win 2).blk t).view.emb (ix2 p q)) (fun k => ?_) (fun k => ?_)
  · -- row p of the block of the hidden layer is its row (10000 t + p)
    refine congrArg (V c main_v43) ?_
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  · -- the weight block is the whole weight; the column is the output's column
    refine congrArg (V c main_arg4) ?_
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega

/-- An index of the result array lies in grid point t's block iff each coordinate lies in the block's range. -/
theorem mem_blk (t : Fin cfg2.N) (i : S100000x128.Idx) :
    i ∈ ((cfg2.win 2).blk t).view.set
      ↔ ∀ a : Fin 2, win2_2.index t a * S10000x128.size a ≤ (i a).val
          ∧ (i a).val < win2_2.index t a * S10000x128.size a + S10000x128.size a := by
  show i ∈ ((View.whole main_v44).slice (win2_2.rect t)).set ↔ _
  rw [View.set_slice_whole, Rect.mem_set_unit]
  exact Iff.rfl

/-- The ten row blocks tile the result array: row r lies in the block of grid point r / 10000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  let t : Fin cfg2.N := ⟨(i 0).val / 10000, by rw [show cfg2.N = 10 from N_2]; omega⟩
  have ht : t.val = (i 0).val / 10000 := rfl
  obtain ⟨e0, e1, e2, e3, e4, e5⟩ := idx_facts t
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 128 ≤ (i 1).val ∧ (i 1).val < win2_2.index t (1 : Fin 2) * 128 + 128
    omega

/-- Region 2 (h1 · W2): its output array after the region, as one function of the arrays the region finds. -/
theorem arr2 (c : Dev nD) : (dat2 (F := Ideal) V c).arrAt 2 cfg2.N = Gcn.dense (V c main_v43) (V c main_arg4) :=
  (dat2 (F := Ideal) V c).arrAt_eq_of_cover 2 (Gcn.dense (V c main_v43) (V c main_arg4))
    (fun t _ => flushed_eq V c t) cover

end Cert.KernelIdeal.Val2

end
-- ==== Proof.Region3.lean ====
import proofs.«126655_j91233695301736_1_alg».proof.Proof.Gen.KernelIdeal.Frame
import proofs.«126655_j91233695301736_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Val3

open Cert.KernelIdeal Cert.KernelIdeal.Gen

variable (V : (c : Dev nD) → (b : Ref sig .tc) → Buf (Elt Ideal) ((c : Thread nD τ).loc b))

/-- The all-zero offsets of a whole-block access, rank 2 and rank 1. -/
theorem hz2 : (![0, 0] : Fin 2 → Nat) = fun _ => 0 := funext fun a => by fin_cases a <;> rfl
theorem hz1 : (![0] : Fin 1 → Nat) = fun _ => 0 := funext fun a => by fin_cases a; rfl

/-- The body's arithmetic at an entry: the row block's entry plus the bias at its column, then the positive part. -/
theorem pay_apply (x0 : Vec Ideal S10000x128 .f32) (x1 : Vec Ideal S128 .f32) (p : Fin 10000) (q : Fin 128) :
    k3_pay1 (F := Ideal) x0 x1 (ix2 p q) = max (x0 (ix2 p q) + x1 (ix1 q)) (Ideal.ofBits .f32 0x00000000#32) := by
  unfold k3_pay1
  refine (maximumf_apply _ _ _).trans ?_
  refine congrArg₂ max ?_ ?_
  · refine (addf_apply _ _ _).trans ?_
    refine congrArg₂ (· + ·) ?_ ?_
    · exact congrFun (shapeCast_self x0 _) (ix2 p q)
    · refine (broadcastTo_1b_ab_apply _ _ p q).trans ?_
      exact shapeCast_a_1a_apply x1 _ (0 : Fin 1) q
  · rfl

/-- The block index maps over the grid: the row-blocked windows sit at block (t, 0), the bias window at block (0). -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- An entry of the whole-array function, read from entries of the two arrays at places known only up to equality:
    the aggregated array at the same place, the bias at that place's column. -/
theorem biasRelu_at (a : FVec Ideal ⟨2, ![100000, 128]⟩ .f32) (b : FVec Ideal ⟨1, ![128]⟩ .f32)
    (i0 i2 : (⟨2, ![100000, 128]⟩ : Shape).Idx) (i1 : (⟨1, ![128]⟩ : Shape).Idx) (h0 : i0 = i2) (h1 : i1 = ix1 (i2 1)) :
    max (a i0 + b i1) (Ideal.ofBits .f32 0x00000000#32) = Gcn.biasRelu a b i2 := by
  subst h0 h1; rfl

/-- What grid point t writes back is block t of the bias-and-positive-part of the arrays the region finds. -/
theorem flushed_eq (c : Dev nD) (t : Fin cfg3.N) :
    (dat3 (F := Ideal) V c).flushed 2 t
      = ((cfg3.win 2).blk t).view.read (Elt Ideal) (Gcn.biasRelu (V c main_v82) (V c main_arg5)) := by
  show (cfg3.win 2).cut (grid3.coords t) ((dat3 V c).after 2 t) = _
  rw [after3_2]
  unfold out3_2
  rw [View.canon_unit_zero hz2]
  simp only [View.ld_unit_zero (S := S10000x128) hz2, View.ld_unit_zero (S := S128) hz1]
  funext j
  obtain ⟨p, q, rfl⟩ : ∃ (p : Fin 10000) (q : Fin 128), j = ix2 p q := ⟨j 0, j 1, eq_ix2 j⟩
  obtain ⟨e00, e01, e10, e20, e21⟩ := idx_facts t
  show k3_pay1 (F := Ideal) (iblk3 V c 0 t) (iblk3 V c 1 t) (ix2 p q)
    = Gcn.biasRelu (V c main_v82) (V c main_arg5) (((cfg3.win 2).blk t).view.emb (ix2 p q))
  refine (pay_apply (iblk3 V c 0 t) (iblk3 V c 1 t) p q).trans ?_
  -- the row block's entry is the array's entry at the output block's place
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 128 + 1 * q.val = win3_2.index t (1 : Fin 2) * 128 + 1 * q.val; omega
  -- the bias block's entry is the bias at the output place's column
  have h1 : ((cfg3.win 1).blk t).view.emb (ix1 q) = ix1 ((((cfg3.win 2).blk t).view.emb (ix2 p q)) 1) := by
    funext a; apply Fin.ext
    match a with
    | ⟨0, _⟩ => show win3_1.index t (0 : Fin 1) * 128 + 1 * q.val = win3_2.index t (1 : Fin 2) * 128 + 1 * q.val; omega
  exact biasRelu_at (V c main_v82) (V c main_arg5) (((cfg3.win 0).blk t).view.emb (ix2 p q))
    (((cfg3.win 2).blk t).view.emb (ix2 p q)) (((cfg3.win 1).blk t).view.emb (ix1 q)) h0 h1

/-- A place of the array lies in grid point t's block iff each coordinate lies in the block's range on its axis. -/
theorem mem_blk (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v83).slice (win3_2.rect t)).set ↔ _
  rw [View.set_slice_whole, Rect.mem_set_unit]
  exact Iff.rfl

/-- Every place of the array is in the block some grid point writes back: row r is in block r / 10000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  let t : Fin cfg3.N := ⟨(i 0).val / 10000, by rw [show cfg3.N = 10 from N_3]; omega⟩
  obtain ⟨e00, e01, e10, e20, e21⟩ := idx_facts t
  have ht : t.val = (i 0).val / 10000 := rfl
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- Region 3 (relu (agg + b2)): its output array after the region, as one function of the arrays the region finds. -/
theorem arr3 (c : Dev nD) : (dat3 (F := Ideal) V c).arrAt 2 cfg3.N = Gcn.biasRelu (V c main_v82) (V c main_arg5) :=
  (dat3 (F := Ideal) V c).arrAt_eq_of_cover 2 (Gcn.biasRelu (V c main_v82) (V c main_arg5))
    (fun t _ => flushed_eq V c t) cover

end Cert.KernelIdeal.Val3

end
-- ==== Proof.Region4.lean ====
import proofs.«126655_j91233695301736_1_alg».proof.Proof.Gen.KernelIdeal.Frame
import proofs.«126655_j91233695301736_1_alg».proof.Proof.Spec
import proofs.«126655_j91233695301736_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Val4

open Cert.KernelIdeal Cert.KernelIdeal.Gen

variable (V : (c : Dev nD) → (b : Ref sig .tc) → Buf (Elt Ideal) ((c : Thread nD τ).loc b))

/-! ## Region 4: one row block of the fused heads, then the whole array -/

theorem zero_offsets2 : (![0, 0] : Fin 2 → Nat) = fun _ => 0 := funext fun a => by fin_cases a <;> rfl
theorem zero_offsets1 : (![0] : Fin 1 → Nat) = fun _ => 0 := funext fun a => by fin_cases a; rfl

/-- The block computation at an entry: row p of the row block against column q of the fused weight, summed over the
    shared axis from zero, plus entry q of the fused bias (the bias vector laid as one row and repeated down the rows). -/
theorem heads_block_apply (x0 : Vec Ideal S10000x128 .f32) (x1 : Vec Ideal S128x32 .f32) (x2 : Vec Ideal S32 .f32)
    (p : Fin 10000) (q : Fin 32) :
    k4_pay1 (F := Ideal) x0 x1 x2 (ix2 p q) = (∑ k : Fin 128, x0 (ix2 p k) * x1 (ix2 k q)) + x2 (ix1 q) := by
  unfold k4_pay1
  refine (addf_apply _ _ _).trans ?_
  refine congrArg₂ (· + ·) ?_ ?_
  · -- the product from a zero accumulator is the sum over the shared axis; the narrowing of the operands is the identity
    refine (PlainDot.matmul_zero_apply ⟨rfl, rfl, rfl, rfl, rfl, rfl⟩ none _ _ p q).trans ?_
    refine Finset.sum_congr rfl fun k _ => ?_
    rw [truncf_apply, truncf_apply, shapeCast_self, shapeCast_self]
  · -- the bias as a 1 × 32 row, repeated down the 10000 rows
    refine (broadcastTo_1b_ab_apply _ _ p q).trans ?_
    refine (shapeCast_a_1a_apply _ _ (0 : Fin 1) q).trans ?_
    rw [shapeCast_self]

/-- Where each window's block sits at grid point t: the row-blocked input and the output at block row t, column block 0;
    the weight and the bias whole, at block 0. -/
theorem block_positions : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- What grid point t writes back is block t of the fused affine map of the arrays the region finds. -/
theorem written_block_eq (c : Dev nD) (t : Fin cfg4.N) :
    (dat4 (F := Ideal) V c).flushed 3 t
      = ((cfg4.win 3).blk t).view.read (Elt Ideal) (Gcn.affine (V c main_v83) (V c main_v84) (V c main_v85)) := by
  show (cfg4.win 3).cut (grid4.coords t) ((dat4 V c).after 3 t) = _
  rw [after4_3]
  unfold out4_3
  rw [View.canon_unit_zero zero_offsets2]
  simp only [View.ld_unit_zero (S := S10000x128) zero_offsets2, View.ld_unit_zero (S := S128x32) zero_offsets2, View.ld_unit_zero (S := S32) zero_offsets1]
  obtain ⟨e00, e01, e10, e11, e20, e30, e31⟩ := block_positions t
  have ht : t.val < 10 := Nat.lt_of_lt_of_eq t.isLt (show cfg4.N = 10 from N_4)
  funext j
  obtain ⟨p, q, rfl⟩ : ∃ (p : Fin 10000) (q : Fin 32), j = ix2 p q := ⟨j 0, j 1, eq_ix2 j⟩
  have hp : p.val < 10000 := p.isLt
  have hq : q.val < 32 := q.isLt
  have hr : t.val * 10000 + p.val < 100000 := by omega
  -- entry (p, q) of the output's block t is entry (10000 t + p, q) of the array
  have h3 : ((cfg4.win 3).blk t).view.emb (ix2 p q) = ix2 (⟨t.val * 10000 + p.val, hr⟩ : Fin 100000) q := by
    funext a; apply Fin.ext
    match a with
    | ⟨0, _⟩ => show win4_3.index t (0 : Fin 2) * 10000 + 1 * p.val = t.val * 10000 + p.val; omega
    | ⟨1, _⟩ => show win4_3.index t (1 : Fin 2) * 32 + 1 * q.val = q.val; omega
  refine Eq.trans ?_ (congrArg (Gcn.affine (V c main_v83) (V c main_v84) (V c main_v85)) h3).symm
  refine (heads_block_apply _ _ _ p q).trans ?_
  rw [Gcn.affine_apply]
  refine congrArg₂ (· + ·) (Finset.sum_congr rfl fun k _ => congrArg₂ (· * ·) ?_ ?_) ?_
  · -- entry (p, k) of the input's block t is entry (10000 t + p, k) of the input array
    show V c main_v83 (((cfg4.win 0).blk t).view.emb (ix2 p k)) = V c main_v83 (ix2 (⟨t.val * 10000 + p.val, hr⟩ : Fin 100000) k)
    refine congrArg (V c main_v83) ?_
    funext a; apply Fin.ext
    match a with
    | ⟨0, _⟩ => show win4_0.index t (0 : Fin 2) * 10000 + 1 * p.val = t.val * 10000 + p.val; omega
    | ⟨1, _⟩ => show win4_0.index t (1 : Fin 2) * 128 + 1 * k.val = k.val; omega
  · -- the weight's one block is the whole weight
    show V c main_v84 (((cfg4.win 1).blk t).view.emb (ix2 k q)) = V c main_v84 (ix2 k q)
    refine congrArg (V c main_v84) ?_
    funext a; apply Fin.ext
    match a with
    | ⟨0, _⟩ => show win4_1.index t (0 : Fin 2) * 128 + 1 * k.val = k.val; omega
    | ⟨1, _⟩ => show win4_1.index t (1 : Fin 2) * 32 + 1 * q.val = q.val; omega
  · -- the bias's one block is the whole bias
    show V c main_v85 (((cfg4.win 2).blk t).view.emb (ix1 q)) = V c main_v85 (ix1 q)
    refine congrArg (V c main_v85) ?_
    funext a; apply Fin.ext
    match a with
    | ⟨0, _⟩ => show win4_2.index t (0 : Fin 1) * 32 + 1 * q.val = q.val; omega

/-- An entry of the output array is in grid point t's block iff each coordinate is in the block's range on its axis. -/
theorem mem_row_block (t : Fin cfg4.N) (i : S100000x32.Idx) :
    i ∈ ((cfg4.win 3).blk t).view.set ↔ ∀ a : Fin 2, win4_3.index t a * S10000x32.size a ≤ (i a).val
      ∧ (i a).val < win4_3.index t a * S10000x32.size a + S10000x32.size a := by
  show i ∈ ((View.whole main_v86).slice (win4_3.rect t)).set ↔ _
  rw [View.set_slice_whole, Rect.mem_set_unit]
  exact Iff.rfl

/-- The ten row blocks tile the output array: row r lies in the block of grid point r / 10000. -/
theorem row_blocks_cover (i : S100000x32.Idx) :
    ∃ t : Fin cfg4.N, (cfg4.win 3).flush t = true ∧ i ∈ ((cfg4.win 3).blk t).view.set := by
  have hi0 : (i 0).val < 100000 := (i 0).isLt
  have hi1 : (i 1).val < 32 := (i 1).isLt
  have hN : (i 0).val / 10000 < cfg4.N := by rw [show cfg4.N = 10 from N_4]; omega
  obtain ⟨-, -, -, -, -, e30, e31⟩ := block_positions ⟨(i 0).val / 10000, hN⟩
  have e30' : win4_3.index ⟨(i 0).val / 10000, hN⟩ (0 : Fin 2) = (i 0).val / 10000 := e30
  refine ⟨⟨(i 0).val / 10000, hN⟩, flush4_3 _, ?_⟩
  rw [mem_row_block]
  intro a
  match a with
  | ⟨0, _⟩ =>
    show win4_3.index ⟨(i 0).val / 10000, hN⟩ (0 : Fin 2) * 10000 ≤ (i 0).val
      ∧ (i 0).val < win4_3.index ⟨(i 0).val / 10000, hN⟩ (0 : Fin 2) * 10000 + 10000
    omega
  | ⟨1, _⟩ =>
    show win4_3.index ⟨(i 0).val / 10000, hN⟩ (1 : Fin 2) * 32 ≤ (i 1).val
      ∧ (i 1).val < win4_3.index ⟨(i 0).val / 10000, hN⟩ (1 : Fin 2) * 32 + 32
    omega

/-- Region 4 (h2 · [Wm | Ws] + [bm | bs]): its output array after the region, as one function of the arrays the region finds. -/
theorem arr4 (c : Dev nD) : (dat4 (F := Ideal) V c).arrAt 3 cfg4.N = Gcn.affine (V c main_v83) (V c main_v84) (V c main_v85) :=
  (dat4 (F := Ideal) V c).arrAt_eq_of_cover 3 (Gcn.affine (V c main_v83) (V c main_v84) (V c main_v85))
    (fun t _ => written_block_eq V c t) row_blocks_cover

/-- The left 16 columns of the fused heads are the first head: the concatenated weights and biases read on their left part. -/
theorem head_left (h : FVec Ideal S100000x128 .f32) (wm ws : FVec Ideal S128x16 .f32) (bm bs : FVec Ideal S16 .f32) :
    extractStridedSlice S100000x16 ![0, 0]
      (Gcn.affine h (concatenate S128x32 1 [⟨S128x16, wm⟩, ⟨S128x16, ws⟩] concatenates_S128x16_S128x16_S128x32_d1)
        (concatenate S32 0 [⟨S16, bm⟩, ⟨S16, bs⟩] concatenates_S16_S16_S32_d0)) slices_S100000x32_S100000x16_0_0
      = Gcn.affine h wm bm := by
  funext j
  obtain ⟨p, q, rfl⟩ : ∃ (p : Fin 100000) (q : Fin 16), j = ix2 p q := ⟨j 0, j 1, eq_ix2 j⟩
  -- column q of the slice is column q of the fused array
  have hq : q.val < 32 := by have := q.isLt; omega
  refine (slice2_axis1_apply 0 _ slices_S100000x32_S100000x16_0_0 p q (⟨q.val, hq⟩ : Fin 32) (Nat.zero_add _).symm).trans ?_
  rw [Gcn.affine_apply, Gcn.affine_apply]
  -- column q < 16 of [wm | ws] is column q of wm, and entry q < 16 of [bm | bs] is entry q of bm
  refine congrArg₂ (· + ·) (Finset.sum_congr rfl fun k _ => congrArg (h (ix2 p k) * ·) ?_) ?_
  · exact concatenate_pair_apply_left (t := S128x32) (1 : Fin 2) wm ws concatenates_S128x16_S128x16_S128x32_d1
      (ix2 k (⟨q.val, hq⟩ : Fin 32)) rfl (ix2 k q)
      (fun b => by match b with | ⟨0, _⟩ => rfl | ⟨1, _⟩ => rfl)
  · exact concatenate_pair_apply_left (t := S32) (0 : Fin 1) bm bs concatenates_S16_S16_S32_d0
      (ix1 (⟨q.val, hq⟩ : Fin 32)) rfl (ix1 q)
      (fun b => by match b with | ⟨0, _⟩ => rfl)

/-- The right 16 columns of the fused heads are the second head. -/
theorem head_right (h : FVec Ideal S100000x128 .f32) (wm ws : FVec Ideal S128x16 .f32) (bm bs : FVec Ideal S16 .f32) :
    extractStridedSlice S100000x16 ![0, 16]
      (Gcn.affine h (concatenate S128x32 1 [⟨S128x16, wm⟩, ⟨S128x16, ws⟩] concatenates_S128x16_S128x16_S128x32_d1)
        (concatenate S32 0 [⟨S16, bm⟩, ⟨S16, bs⟩] concatenates_S16_S16_S32_d0)) slices_S100000x32_S100000x16_0_16
      = Gcn.affine h ws bs := by
  funext j
  obtain ⟨p, q, rfl⟩ : ∃ (p : Fin 100000) (q : Fin 16), j = ix2 p q := ⟨j 0, j 1, eq_ix2 j⟩
  -- column q of the slice is column 16 + q of the fused array
  have hq : 16 + q.val < 32 := by have := q.isLt; omega
  refine (slice2_axis1_apply 16 _ slices_S100000x32_S100000x16_0_16 p q (⟨16 + q.val, hq⟩ : Fin 32) rfl).trans ?_
  rw [Gcn.affine_apply, Gcn.affine_apply]
  -- column 16 + q of [wm | ws] is column q of ws, and entry 16 + q of [bm | bs] is entry q of bs
  refine congrArg₂ (· + ·) (Finset.sum_congr rfl fun k _ => congrArg (h (ix2 p k) * ·) ?_) ?_
  · exact concatenate_pair_apply_right (t := S128x32) (1 : Fin 2) wm ws concatenates_S128x16_S128x16_S128x32_d1
      (ix2 k (⟨16 + q.val, hq⟩ : Fin 32)) rfl rfl (ix2 k q)
      (fun b hb => by match b with | ⟨0, _⟩ => rfl | ⟨1, _⟩ => exact absurd rfl hb)
      (by show q.val + 16 = 16 + q.val; omega)
  · exact concatenate_pair_apply_right (t := S32) (0 : Fin 1) bm bs concatenates_S16_S16_S32_d0
      (ix1 (⟨16 + q.val, hq⟩ : Fin 32)) rfl rfl (ix1 q)
      (fun b hb => by match b with | ⟨0, _⟩ => exact absurd rfl hb)
      (by show q.val + 16 = 16 + q.val; omega)

end Cert.KernelIdeal.Val4

end
-- ==== Proof.KValue.lean ====
/-
  The kernel program's two results read back through its run. The run's buffer contents at each boundary between a
  stretch of host operations and a region are a fold from the launch memory; here that fold is read at the buffers the
  results depend on, boundary by boundary: a buffer nobody writes is as it was (the walks of `Kept`); a region's
  output array is the specification's function of the arrays the region finds; a host stretch's result is its
  operations' term. The second and the third host stretch are the adjacency operator applied to the dense product
  before them; the fourth lays the two heads' weights side by side and their biases end to end; the last cuts the
  fused heads' 32 columns back into two arrays of 16.
-/
import proofs.«126655_j91233695301736_1_alg».proof.Proof.Kept
import proofs.«126655_j91233695301736_1_alg».proof.Proof.AdjK
import proofs.«126655_j91233695301736_1_alg».proof.Proof.Layers
import proofs.«126655_j91233695301736_1_alg».proof.Proof.Region0
import proofs.«126655_j91233695301736_1_alg».proof.Proof.Region1
import proofs.«126655_j91233695301736_1_alg».proof.Proof.Region2
import proofs.«126655_j91233695301736_1_alg».proof.Proof.Region3
import proofs.«126655_j91233695301736_1_alg».proof.Proof.Region4
import Idealize.ShloMosaic.Lib.StableHlo.Run

set_option maxRecDepth 16384

noncomputable section

open Idealize.ShloMosaic Idealize.ShloMosaic.TcCoe Idealize.SL.Sem

namespace Cert.KernelIdeal.KVal

open Cert.KernelIdeal Cert.KernelIdeal.Gen Cert.KernelIdeal.Adj Cert.KernelIdeal.Kept

variable (m : (ℓ : Loc nD τ sig) → Buf (Elt Ideal) ℓ) (ρ : Dev nD → PrngReg)

/-- The kernel program's adjacency operator at the edge list it is given. -/
abbrev A (c : Dev nD) : FVec Ideal S100000x128 .f32 → FVec Ideal S100000x128 .f32 :=
  fun h => adj (F := Ideal) h (edgeRow0 (m ((c.tc : Thread nD τ).loc main_arg1))) (edgeRow1 (m ((c.tc : Thread nD τ).loc main_arg1)))

/-! ## The two rows of the edge list -/

/-- The first host stretch cuts the sources' row out of the edge list. -/
theorem W1_main_v1 (c : Dev nD) : W1 m ρ c (Proc.devRef .tc main_v1) = edgeRow0 (m ((c.tc : Thread nD τ).loc main_arg1)) := by
  show StableHlo.after hostOps0 (W0 m ρ c) (Proc.devRef .tc main_v1) = _
  dsimp only [hostOps0]
  after_results
  rfl

/-- … and the destinations' row. -/
theorem W1_main_v3 (c : Dev nD) : W1 m ρ c (Proc.devRef .tc main_v3) = edgeRow1 (m ((c.tc : Thread nD τ).loc main_arg1)) := by
  show StableHlo.after hostOps0 (W0 m ρ c) (Proc.devRef .tc main_v3) = _
  dsimp only [hostOps0]
  after_results
  rfl

/-! ## Layer one -/

/-- Region 0 leaves the dense product x · W1. -/
theorem W2_main_v4 (c : Dev nD) : W2 m ρ c (Proc.devRef .tc main_v4) = Gcn.dense (m ((c.tc : Thread nD τ).loc main_arg0)) (m ((c.tc : Thread nD τ).loc main_arg2)) :=
  (W2_arr m ρ c 2).trans ((Cert.KernelIdeal.Val0.arr0 (V1 m ρ) c).trans
    (congrArg₂ Gcn.dense (W1_main_arg0 m ρ c) (W1_main_arg2 m ρ c)))

set_option maxHeartbeats 4000000 in
/-- The second host stretch is the adjacency operator applied to what region 0 left, at the two rows of the edge list. -/
theorem W3_main_v42_adj (c : Dev nD) : W3 m ρ c (Proc.devRef .tc main_v42)
    = adj (F := Ideal) (W2 m ρ c (Proc.devRef .tc main_v4)) (W2 m ρ c (Proc.devRef .tc main_v1)) (W2 m ρ c (Proc.devRef .tc main_v3)) := by
  show StableHlo.after hostOps1 (W2 m ρ c) (Proc.devRef .tc main_v42) = _
  generalize W2 m ρ c = W
  dsimp only [hostOps1]
  after_results_simp
  rfl

theorem W3_main_v42 (c : Dev nD) : W3 m ρ c (Proc.devRef .tc main_v42) = A m c (Gcn.dense (m ((c.tc : Thread nD τ).loc main_arg0)) (m ((c.tc : Thread nD τ).loc main_arg2))) := by
  rw [W3_main_v42_adj, W2_main_v4, W2_main_v1_from1, W2_main_v3_from1, W1_main_v1, W1_main_v3]

/-- Region 1 adds the bias and takes the positive part. -/
theorem W4_main_v43 (c : Dev nD) : W4 m ρ c (Proc.devRef .tc main_v43)
    = Gcn.biasRelu (A m c (Gcn.dense (m ((c.tc : Thread nD τ).loc main_arg0)) (m ((c.tc : Thread nD τ).loc main_arg2)))) (m ((c.tc : Thread nD τ).loc main_arg3)) :=
  (W4_arr m ρ c 2).trans ((Cert.KernelIdeal.Val1.arr1 (V3 m ρ) c).trans
    (congrArg₂ Gcn.biasRelu (W3_main_v42 m ρ c) (W3_main_arg3 m ρ c)))

/-! ## Layer two -/

/-- Region 2 leaves the dense product h1 · W2. -/
theorem W5_main_v44 (c : Dev nD) : W5 m ρ c (Proc.devRef .tc main_v44)
    = Gcn.dense (Gcn.biasRelu (A m c (Gcn.dense (m ((c.tc : Thread nD τ).loc main_arg0)) (m ((c.tc : Thread nD τ).loc main_arg2)))) (m ((c.tc : Thread nD τ).loc main_arg3))) (m ((c.tc : Thread nD τ).loc main_arg4)) :=
  (W5_arr m ρ c 2).trans ((Cert.KernelIdeal.Val2.arr2 (V4 m ρ) c).trans
    (congrArg₂ Gcn.dense (W4_main_v43 m ρ c) (W4_main_arg4 m ρ c)))

set_option maxHeartbeats 4000000 in
/-- The third host stretch is the adjacency operator applied to what region 2 left. -/
theorem W6_main_v82_adj (c : Dev nD) : W6 m ρ c (Proc.devRef .tc main_v82)
    = adj (F := Ideal) (W5 m ρ c (Proc.devRef .tc main_v44)) (W5 m ρ c (Proc.devRef .tc main_v1)) (W5 m ρ c (Proc.devRef .tc main_v3)) := by
  show StableHlo.after hostOps3 (W5 m ρ c) (Proc.devRef .tc main_v82) = _
  generalize W5 m ρ c = W
  dsimp only [hostOps3]
  after_results_simp
  rfl

theorem W6_main_v82 (c : Dev nD) : W6 m ρ c (Proc.devRef .tc main_v82)
    = A m c (Gcn.dense (Gcn.biasRelu (A m c (Gcn.dense (m ((c.tc : Thread nD τ).loc main_arg0)) (m ((c.tc : Thread nD τ).loc main_arg2)))) (m ((c.tc : Thread nD τ).loc main_arg3))) (m ((c.tc : Thread nD τ).loc main_arg4))) := by
  rw [W6_main_v82_adj, W5_main_v44, W5_main_v1_from2, W5_main_v3_from2, W2_main_v1_from1, W2_main_v3_from1, W1_main_v1, W1_main_v3]

/-- Region 3 adds the bias and takes the positive part: the two layers' output. -/
theorem W7_main_v83 (c : Dev nD) : W7 m ρ c (Proc.devRef .tc main_v83) = Gcn.hidden (A m c) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (W7_arr m ρ c 2).trans ((Cert.KernelIdeal.Val3.arr3 (V6 m ρ) c).trans
    (congrArg₂ Gcn.biasRelu (W6_main_v82 m ρ c) (W6_main_arg5 m ρ c)))

/-! ## The heads -/

/-- The fourth host stretch lays the two heads' weights side by side … -/
theorem W8_main_v84 (c : Dev nD) : W8 m ρ c (Proc.devRef .tc main_v84)
    = concatenate S128x32 1 [⟨S128x16, m ((c.tc : Thread nD τ).loc main_arg6)⟩, ⟨S128x16, m ((c.tc : Thread nD τ).loc main_arg8)⟩] concatenates_S128x16_S128x16_S128x32_d1 := by
  show StableHlo.after hostOps4 (W7 m ρ c) (Proc.devRef .tc main_v84) = _
  rw [← W7_main_arg6 m ρ c, ← W7_main_arg8 m ρ c]
  generalize W7 m ρ c = W
  dsimp only [hostOps4]
  after_results

/-- … and their biases end to end. -/
theorem W8_main_v85 (c : Dev nD) : W8 m ρ c (Proc.devRef .tc main_v85)
    = concatenate S32 0 [⟨S16, m ((c.tc : Thread nD τ).loc main_arg7)⟩, ⟨S16, m ((c.tc : Thread nD τ).loc main_arg9)⟩] concatenates_S16_S16_S32_d0 := by
  show StableHlo.after hostOps4 (W7 m ρ c) (Proc.devRef .tc main_v85) = _
  rw [← W7_main_arg7 m ρ c, ← W7_main_arg9 m ρ c]
  generalize W7 m ρ c = W
  dsimp only [hostOps4]
  after_results

/-- Region 4 leaves both heads in one 32-column array. -/
theorem W9_main_v86 (c : Dev nD) : W9 m ρ c (Proc.devRef .tc main_v86)
    = Gcn.affine (Gcn.hidden (A m c) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
        (concatenate S128x32 1 [⟨S128x16, m ((c.tc : Thread nD τ).loc main_arg6)⟩, ⟨S128x16, m ((c.tc : Thread nD τ).loc main_arg8)⟩] concatenates_S128x16_S128x16_S128x32_d1)
        (concatenate S32 0 [⟨S16, m ((c.tc : Thread nD τ).loc main_arg7)⟩, ⟨S16, m ((c.tc : Thread nD τ).loc main_arg9)⟩] concatenates_S16_S16_S32_d0) := by
  refine (W9_arr m ρ c 3).trans ((Cert.KernelIdeal.Val4.arr4 (V8 m ρ) c).trans ?_)
  have e83 : (V8 m ρ c main_v83 : FVec Ideal S100000x128 .f32) = Gcn.hidden (A m c) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
    (W8_main_v83_from7 m ρ c).trans (W7_main_v83 m ρ c)
  have e84 := W8_main_v84 m ρ c
  have e85 := W8_main_v85 m ρ c
  exact congr (congr (congrArg Gcn.affine e83) e84) e85

/-- The first result buffer at the last boundary: the first head of the two layers. -/
theorem out0 (c : Dev nD) : W10 m ρ c (Proc.devRef .tc main_v87)
    = Gcn.affine (Gcn.hidden (A m c) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7)) := by
  have e : W10 m ρ c (Proc.devRef .tc main_v87)
      = extractStridedSlice S100000x16 ![0, 0] (W9 m ρ c (Proc.devRef .tc main_v86)) slices_S100000x32_S100000x16_0_0 := by
    show StableHlo.after hostOps5 (W9 m ρ c) (Proc.devRef .tc main_v87) = _
    generalize W9 m ρ c = W
    dsimp only [hostOps5]
    after_results
  rw [e, W9_main_v86]
  exact Cert.KernelIdeal.Val4.head_left _ _ _ _ _

/-- The second result buffer at the last boundary: the second head of the two layers. -/
theorem out1 (c : Dev nD) : W10 m ρ c (Proc.devRef .tc main_v88)
    = Gcn.affine (Gcn.hidden (A m c) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg8)) (m ((c.tc : Thread nD τ).loc main_arg9)) := by
  have e : W10 m ρ c (Proc.devRef .tc main_v88)
      = extractStridedSlice S100000x16 ![0, 16] (W9 m ρ c (Proc.devRef .tc main_v86)) slices_S100000x32_S100000x16_0_16 := by
    show StableHlo.after hostOps5 (W9 m ρ c) (Proc.devRef .tc main_v88) = _
    generalize W9 m ρ c = W
    dsimp only [hostOps5]
    after_results
  rw [e, W9_main_v86]
  exact Cert.KernelIdeal.Val4.head_right _ _ _ _ _

end Cert.KernelIdeal.KVal

end
-- ==== Proof.AdjR.lean ====
/-
  The adjacency operator of the graph convolution, over the reference program's own shape and
  dimension records: a gather of rows along the edges, a scaling by the symmetric degree normalisation, and a
  scatter-add at the destinations. It is carried as ONE function of the dense product and the two endpoint vectors.
-/
import proofs.«126655_j91233695301736_1_alg».proof.ReferenceIdeal
import proofs.«126655_j91233695301736_1_alg».proof.Proof.Gen.ReferenceIdeal

noncomputable section

namespace Cert.ReferenceIdeal.Adj

open Cert.ReferenceIdeal Cert.ReferenceIdeal.Gen Idealize.ShloMosaic

variable {F : FTy → Type} [FloatOps F]

/-- An edge-endpoint vector with one self loop per node appended. -/
def withLoops (v : IVec S1600000 32) : IVec S1700000 32 :=
  concatenate S1700000 0 [⟨S1600000, v⟩, ⟨S100000, (iotaInDim S100000 32 0)⟩] concatenates_S1600000_S100000_S1700000_d0

/-- A negative node index counted from the end. -/
def wrapNeg (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- A node index vector as the one-column index array a gather or scatter takes. -/
def asColumn (v : IVec S1700000 32) : IVec S1700000x1 32 :=
  broadcastInDim S1700000x1 ![0] bcast_S1700000_S1700000x1_0 v

/-- The inverse square root of each node's in-degree (self loop included), the degree kept at least one. -/
def invSqrtDeg (dst : IVec S1600000 32) : FVec F S100000 .f32 :=
  Host.rsqrt (maximumf
    (Host.scatterAdd scatter_S100000_S1700000x1_S1700000_n_0_0_1
      (broadcastInDim S100000 ![] bcast_S_S100000 (constant S_ .f32 0x00000000#32))
      (asColumn (withLoops dst))
      (broadcastInDim S1700000 ![] bcast_S_S1700000 (constant S_ .f32 0x3F800000#32)))
    (broadcastInDim S100000 ![] bcast_S_S100000 (constant S_ .f32 0x3F800000#32)))

/-- The symmetric normalisation of every edge: the two endpoints' inverse square-root degrees multiplied. -/
def edgeNorm (src dst : IVec S1600000 32) : FVec F S1700000 .f32 :=
  mulf (Host.gather gather_S100000_S1700000x1_S1700000_n_0_n_n_0_1_1 (invSqrtDeg (F := F) dst) (asColumn (wrapNeg (withLoops src))))
    (Host.gather gather_S100000_S1700000x1_S1700000_n_0_n_n_0_1_1 (invSqrtDeg (F := F) dst) (asColumn (wrapNeg (withLoops dst))))

/-- THE ADJACENCY OPERATOR: each edge carries its source row of `h`, scaled by the edge's normalisation, and the rows
    are added up at the edge's destination. -/
def adj (h : FVec F S100000x128 .f32) (src dst : IVec S1600000 32) : FVec F S100000x128 .f32 :=
  Host.scatterAdd scatter_S100000x128_S1700000x1_S1700000x128_1_0_0_1
    (broadcastInDim S100000x128 ![] bcast_S_S100000x128 (constant S_ .f32 0x00000000#32))
    (asColumn (withLoops dst))
    (mulf (Host.gather gather_S100000x128_S1700000x1_S1700000x128_1_0_n_n_0_1_1128 h (asColumn (wrapNeg (withLoops src))))
      (broadcastInDim S1700000x128 ![0, 1] bcast_S1700000x1_S1700000x128_0_1
        (broadcastInDim S1700000x1 ![0] bcast_S1700000_S1700000x1_0 (edgeNorm (F := F) src dst))))

/-- One row of the edge list as a vector: the sources are row 0, the destinations row 1. -/
def edgeRow0 (e : IVec S2x1600000 32) : IVec S1600000 32 :=
  shapeCast _ (extractStridedSlice S1x1600000 ![0, 0] e slices_S2x1600000_S1x1600000_0_0) shapeCasts_S1x1600000_S1600000
def edgeRow1 (e : IVec S2x1600000 32) : IVec S1600000 32 :=
  shapeCast _ (extractStridedSlice S1x1600000 ![1, 0] e slices_S2x1600000_S1x1600000_1_0) shapeCasts_S1x1600000_S1600000

end Cert.ReferenceIdeal.Adj

end
-- ==== Proof.RValue.lean ====
/-
  The reference program's two results as the specification's functions.

  Each result is one nest of host operations over the arguments: a dense product, the adjacency operator, a bias added
  along every row and the positive part, twice over, and then a 16-column dense product with its own bias. Three
  whole-array laws turn the host's operations into the specification's: the host's product is `Gcn.dense` (both are the
  sum over the shared axis), the host's add-of-a-broadcast-bias followed by the maximum with a broadcast zero is
  `Gcn.biasRelu`, and the host's 16-column product plus a broadcast bias is `Gcn.affine`. Each law is read index by index.
  The adjacency operator is never opened: the result's term holds its chain of operations literally, and that chain is
  the operator's definition.
-/
import proofs.«126655_j91233695301736_1_alg».proof.Proof.Gen.ReferenceIdeal.Run
import proofs.«126655_j91233695301736_1_alg».proof.Proof.AdjR
import proofs.«126655_j91233695301736_1_alg».proof.Proof.Layers
import proofs.«126655_j91233695301736_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.ValueIdx

namespace Cert.ReferenceIdeal.RefVal

open Cert.ReferenceIdeal Cert.ReferenceIdeal.Gen Cert.ReferenceIdeal.Value Cert.ReferenceIdeal.Adj

/-- The host's 128-column product is the specification's dense product: both are the sum over the shared axis. -/
theorem dense_host (x : FVec Ideal S100000x128 .f32) (w : FVec Ideal S128x128 .f32) :
    Host.dotGeneral dot_S100000x128_S128x128_S100000x128_1_0_0_1_n_n none x w = Gcn.dense x w := by
  funext j
  obtain ⟨p, q, rfl⟩ : ∃ (p : Fin 100000) (q : Fin 128), j = ix2 p q := ⟨j 0, j 1, eq_ix2 j⟩
  exact (PlainDot.dotGeneral_apply (d := dot_S100000x128_S128x128_S100000x128_1_0_0_1_n_n) ⟨rfl, rfl, rfl, rfl, rfl, rfl⟩ none .single x w p q).trans
    (Gcn.dense_apply x w p q).symm

/-- The host's 16-column product is the specification's dense product. -/
theorem dense16_host (x : FVec Ideal S100000x128 .f32) (w : FVec Ideal S128x16 .f32) :
    Host.dotGeneral dot_S100000x128_S128x16_S100000x16_1_0_0_1_n_n none x w = Gcn.dense x w := by
  funext j
  obtain ⟨p, q, rfl⟩ : ∃ (p : Fin 100000) (q : Fin 16), j = ix2 p q := ⟨j 0, j 1, eq_ix2 j⟩
  exact (PlainDot.dotGeneral_apply (d := dot_S100000x128_S128x16_S100000x16_1_0_0_1_n_n) ⟨rfl, rfl, rfl, rfl, rfl, rfl⟩ none .single x w p q).trans
    (Gcn.dense_apply x w p q).symm

/-- A bias vector broadcast first to one row and then down every row reads the bias at the column. -/
theorem bias128_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The same for a 16-entry bias vector. -/
theorem bias16_apply (b : FVec Ideal S16 .f32) (p : Fin 100000) (q : Fin 16) :
    broadcastInDim S100000x16 ![0, 1] bcast_S1x16_S100000x16_0_1 (broadcastInDim S1x16 ![1] bcast_S16_S1x16_1 b) (ix2 p q)
      = b (ix1 q) := by
  refine (broadcastInDim_apply _ bcast_S1x16_S100000x16_0_1 _ (ix2 p q) (ix2 (0 : Fin 1) q) (fun a => match a with
    | ⟨0, _⟩ => by show 0 = if (1 : Nat) = 1 then 0 else p.val; rw [if_pos rfl]
    | ⟨1, _⟩ => by show q.val = if (16 : Nat) = 1 then 0 else q.val; rw [if_neg (by decide)])).trans ?_
  exact broadcastInDim_apply _ bcast_S16_S1x16_1 b (ix2 (0 : Fin 1) q) (ix1 q) (fun a => match a with
    | ⟨0, _⟩ => by show q.val = if (16 : Nat) = 1 then 0 else q.val; rw [if_neg (by decide)])

/-- The host's bias, add and maximum with the broadcast zero is the specification's bias-and-positive-part. -/
theorem relu_host (a : FVec Ideal S100000x128 .f32) (b : FVec Ideal S128 .f32) :
    maximumf (addf a (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = Gcn.biasRelu a b := by
  funext j
  obtain ⟨p, q, rfl⟩ : ∃ (p : Fin 100000) (q : Fin 128), j = ix2 p q := ⟨j 0, j 1, eq_ix2 j⟩
  rw [maximumf_apply, addf_apply, bias128_apply, Gcn.biasRelu_apply]
  refine congrArg (max (a (ix2 p q) + b (ix1 q))) ?_
  exact (broadcastInDim_apply _ bcast_S_S100000x128 _ (ix2 p q) ix0 (fun a => a.elim0)).trans (constant_apply _ _)

/-- The host's 16-column product with its broadcast bias added is the specification's affine head. -/
theorem head_host (h : FVec Ideal S100000x128 .f32) (w : FVec Ideal S128x16 .f32) (b : FVec Ideal S16 .f32) :
    addf (Host.dotGeneral dot_S100000x128_S128x16_S100000x16_1_0_0_1_n_n none h w)
        (broadcastInDim S100000x16 ![0, 1] bcast_S1x16_S100000x16_0_1 (broadcastInDim S1x16 ![1] bcast_S16_S1x16_1 b))
      = Gcn.affine h w b := by
  rw [dense16_host]
  funext j
  obtain ⟨p, q, rfl⟩ : ∃ (p : Fin 100000) (q : Fin 16), j = ix2 p q := ⟨j 0, j 1, eq_ix2 j⟩
  rw [addf_apply, bias16_apply, Gcn.affine_apply, Gcn.dense_apply]

variable (m : (ℓ : Loc nD τ sig) → Buf (Elt Ideal) ℓ)

/-- The reference's adjacency operator at the edge list it is given. -/
abbrev A (c : Dev nD) : FVec Ideal S100000x128 .f32 → FVec Ideal S100000x128 .f32 :=
  fun h => adj h (edgeRow0 (m ((c.tc : Thread nD τ).loc main_arg1))) (edgeRow1 (m ((c.tc : Thread nD τ).loc main_arg1)))

/-- The reference's first result: the first head of the two layers. -/
theorem res0 (c : Dev nD) : res_main_v93 (F := Ideal) m c
    = Gcn.affine (Gcn.hidden (A m c) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
        (m ((c.tc : Thread nD τ).loc main_arg6)) (m ((c.tc : Thread nD τ).loc main_arg7)) := by
  -- the specification's nest, written back as the host's operations, layer by layer from the outside in
  rw [← head_host, Gcn.hidden, ← relu_host, ← dense_host, ← relu_host, ← dense_host]
  -- what is left differs from the result's term only by the adjacency operator's definition
  unfold res_main_v93
  rfl

/-- The reference's second result: the second head of the two layers. -/
theorem res1 (c : Dev nD) : res_main_v97 (F := Ideal) m c
    = Gcn.affine (Gcn.hidden (A m c) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
        (m ((c.tc : Thread nD τ).loc main_arg8)) (m ((c.tc : Thread nD τ).loc main_arg9)) := by
  rw [← head_host, Gcn.hidden, ← relu_host, ← dense_host, ← relu_host, ← dense_host]
  unfold res_main_v97
  rfl

end Cert.ReferenceIdeal.RefVal

end
-- ==== Proof.AdjEq.lean ====
/-
  The two programs spell the adjacency operator with their own copies of the same shape and dimension records; the
  copies have the same fields, so the two operators are one function.
-/
import proofs.«126655_j91233695301736_1_alg».proof.Proof.AdjK
import proofs.«126655_j91233695301736_1_alg».proof.Proof.AdjR
import Idealize.ShloMosaic.PureOps.Ideal

noncomputable section

namespace Cert.AdjEq

open Idealize.ShloMosaic

/-- The reference's adjacency operator is the kernel program's. -/
theorem adj_eq (h : FVec Ideal Cert.KernelIdeal.S100000x128 .f32) (s d : IVec Cert.KernelIdeal.S1600000 32) :
    Cert.ReferenceIdeal.Adj.adj (F := Ideal) h s d = Cert.KernelIdeal.Adj.adj (F := Ideal) h s d := rfl

/-- The sources' row of the edge list, read alike. -/
theorem edgeRow0_eq (e : IVec Cert.KernelIdeal.S2x1600000 32) :
    Cert.ReferenceIdeal.Adj.edgeRow0 e = Cert.KernelIdeal.Adj.edgeRow0 e := rfl

/-- The destinations' row of the edge list, read alike. -/
theorem edgeRow1_eq (e : IVec Cert.KernelIdeal.S2x1600000 32) :
    Cert.ReferenceIdeal.Adj.edgeRow1 e = Cert.KernelIdeal.Adj.edgeRow1 e := rfl

end Cert.AdjEq

end
-- ==== Proof.lean ====
/-
  A two-layer graph convolution with two affine heads:  mean = h · Wm + bm,  logstd = h · Ws + bs,  where
  h = relu (A (relu (A (x · W1) + b1) · W2) + b2)  and  A  is the normalised adjacency operator of the edge list
  (self loops added; a gather of rows along the edges, a scaling by the two endpoints' inverse square-root degrees,
  a scatter-add at the destinations).

  The kernel program computes the three dense pieces in five regions — x · W1 and h1 · W2 on the matrix unit in row
  blocks of 10000, the bias and positive part in row blocks, and both heads at once as  h · [Wm | Ws] + [bm | bs],
  cut back into its two halves of 16 columns — and leaves  A  to the host; the reference computes everything on the
  host. Over the extended reals a product rounded on the way into the matrix unit is the product, a product
  accumulated from zero is the sum over the shared axis, and column q of  h · [Wm | Ws]  is column q of  h · Wm  or
  column q − 16 of  h · Ws ; so both programs' results are the same function of the arguments, index by index:
  `Gcn.affine (Gcn.hidden A x W1 b1 W2 b2) Wm bm` and the same with Ws, bs. No algebraic law beyond reading each
  sum where it stands is used, so the finiteness of the inputs is not needed.
  `A` is the same sequence of host operations in both programs and is never opened.
-/
import proofs.«126655_j91233695301736_1_alg».proof.Defs
import proofs.«126655_j91233695301736_1_alg».proof.Proof.Gen.Kernel
import proofs.«126655_j91233695301736_1_alg».proof.Proof.Gen.Kernel.Skeleton
import proofs.«126655_j91233695301736_1_alg».proof.Proof.Gen.Kernel.Launch
import proofs.«126655_j91233695301736_1_alg».proof.Proof.Gen.Kernel.Points
import proofs.«126655_j91233695301736_1_alg».proof.Proof.Gen.Kernel.Frame
import proofs.«126655_j91233695301736_1_alg».proof.Proof.Gen.KernelIdeal
import proofs.«126655_j91233695301736_1_alg».proof.Proof.Gen.KernelIdeal.Skeleton
import proofs.«126655_j91233695301736_1_alg».proof.Proof.Gen.KernelIdeal.Launch
import proofs.«126655_j91233695301736_1_alg».proof.Proof.Gen.KernelIdeal.Points
import proofs.«126655_j91233695301736_1_alg».proof.Proof.Gen.KernelIdeal.Frame
import proofs.«126655_j91233695301736_1_alg».proof.Proof.Gen.ReferenceIdeal
import proofs.«126655_j91233695301736_1_alg».proof.Proof.Gen.ReferenceIdeal.Run
import proofs.«126655_j91233695301736_1_alg».proof.Proof.Gen.Pre_finite_inputs
import proofs.«126655_j91233695301736_1_alg».proof.Proof.KRun
import proofs.«126655_j91233695301736_1_alg».proof.Proof.KValue
import proofs.«126655_j91233695301736_1_alg».proof.Proof.RValue
import proofs.«126655_j91233695301736_1_alg».proof.Proof.AdjEq
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the two heads of the two layers' output, as functions of arguments that agree. -/
theorem algebraic : Cert.algebraic_KernelIdeal_ReferenceIdeal := by
  intro m ρ m' ρ' _ hagree
  refine ⟨fun c => Gcn.affine (Gcn.hidden (Cert.KernelIdeal.KVal.A m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Gcn.affine (Gcn.hidden (Cert.KernelIdeal.KVal.A m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KVal.out0 m ρ c), (h c).2.1.trans (Cert.KernelIdeal.KVal.out1 m ρ c), (h c).2.2⟩)
      (Cert.KernelIdeal.Named.run_named (F := Ideal) m ρ)
  · refine (θ_run Cert.ReferenceIdeal.defs _ _).mono (fun r h c => ?_) (Cert.ReferenceIdeal.Value.run (F := Ideal) m' ρ')
    obtain ⟨e0, e1, e2, e3, e4, e5, e6, e7, e8, e9⟩ := hagree c
    -- the two programs' adjacency operators, at edge lists that agree, are one function
    have hA : Cert.ReferenceIdeal.RefVal.A m' c = Cert.KernelIdeal.KVal.A m c := by
      funext x
      show Cert.ReferenceIdeal.Adj.adj (F := Ideal) x
          (Cert.ReferenceIdeal.Adj.edgeRow0 (m' ((c.tc : Thread Cert.ReferenceIdeal.nD Cert.ReferenceIdeal.τ).loc Cert.ReferenceIdeal.main_arg1)))
          (Cert.ReferenceIdeal.Adj.edgeRow1 (m' ((c.tc : Thread Cert.ReferenceIdeal.nD Cert.ReferenceIdeal.τ).loc Cert.ReferenceIdeal.main_arg1)))
        = Cert.KernelIdeal.Adj.adj (F := Ideal) x
          (Cert.KernelIdeal.Adj.edgeRow0 (m ((c.tc : Thread Cert.KernelIdeal.nD Cert.KernelIdeal.τ).loc Cert.KernelIdeal.main_arg1)))
          (Cert.KernelIdeal.Adj.edgeRow1 (m ((c.tc : Thread Cert.KernelIdeal.nD Cert.KernelIdeal.τ).loc Cert.KernelIdeal.main_arg1)))
      rw [e1, Cert.AdjEq.edgeRow0_eq, Cert.AdjEq.edgeRow1_eq]
      exact Cert.AdjEq.adj_eq _ _ _
    refine ⟨(h c).1.trans ?_, (h c).2.1.trans ?_, (h c).2.2⟩
    · rw [Cert.ReferenceIdeal.RefVal.res0, hA, e0, e2, e3, e4, e5, e6, e7]
    · rw [Cert.ReferenceIdeal.RefVal.res1, hA, e0, e2, e3, e4, e5, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
